-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x512 : Shape := ⟨2, ![512, 512]⟩
abbrev S512 : Shape := ⟨1, ![512]⟩
abbrev S512x768 : Shape := ⟨2, ![512, 768]⟩
abbrev S768 : Shape := ⟨1, ![768]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S100000x512 .f32) (main_arg1 : FVec F S512x512 .f32) (main_arg2 : FVec F S512 .f32) (main_arg3 : FVec F S512x768 .f32) (main_arg4 : FVec F S768 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_v13 main_v16
-- ==== Kernel.lean ====
abbrev S100000x512 : Shape := ⟨2, ![100000, 512]⟩
abbrev S512x512 : Shape := ⟨2, ![512, 512]⟩
abbrev S512 : Shape := ⟨1, ![512]⟩
abbrev S512x768 : Shape := ⟨2, ![512, 768]⟩
abbrev S768 : Shape := ⟨1, ![768]⟩
abbrev S1x512 : Shape := ⟨2, ![1, 512]⟩
abbrev S1x768 : Shape := ⟨2, ![1, 768]⟩
abbrev S100000x768 : Shape := ⟨2, ![100000, 768]⟩
abbrev S1000x512 : Shape := ⟨2, ![1000, 512]⟩
abbrev S1000x768 : Shape := ⟨2, ![1000, 768]⟩

abbrev nBuf : Space → Nat
  | .hbm => 8
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x768, .f32⟩
  | .hbm, ⟨4, _⟩ => ⟨S768, .f32⟩
  | .hbm, ⟨5, _⟩ => ⟨S1x512, .f32⟩
  | .hbm, ⟨6, _⟩ => ⟨S1x768, .f32⟩
  | .hbm, ⟨7, _⟩ => ⟨S100000x768, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1x512, .f32⟩
  | .local _ .vmem, ⟨4, _⟩ => ⟨S512x768, .f32⟩
  | .local _ .vmem, ⟨5, _⟩ => ⟨S1x768, .f32⟩
  | .local _ .vmem, ⟨6, _⟩ => ⟨S1000x768, .f32⟩
  | .local _ .vmem, ⟨7, _⟩ => ⟨S1000x768, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  shapeCasts_S768_S1x768 : S768.ShapeCasts S1x768
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x768_S512x768_0_0 : ∀ a, (![0, 0] : Fin 2 → Nat) a + S512x768.size a ≤ S512x768.size a
  h_S512x768 : 0 < S512x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  inb_S1000x768_S1000x768_0_0 : ∀ a, (![0, 0] : Fin 2 → Nat) a + S1000x768.size a ≤ S1000x768.size a
  h_S1000x768 : 0 < S1000x768.numel
  dot_S1000x512_S512x512_S1000x512_1_0_0_1_n_n_wf : DotDims.WF S1000x512 S512x512 S1000x512 [1] [0] [0] [1] [] []
  dot_S1000x512_S512x768_S1000x768_1_0_0_1_n_n_wf : DotDims.WF S1000x512 S512x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S100000x512.size a
  hwx0_0 : ∀ i : grid0.Coords, EltTy.bits .f32 = 32 ∨ (Rect.block (s := S100000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S512x768.size a
  hwx0_3 : ∀ i : grid0.Coords, EltTy.bits .f32 = 32 ∨ (Rect.block (s := S512x768) S512x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x768.size a ≤ S100000x768.size a
  hwx0_5 : ∀ i : grid0.Coords, EltTy.bits .f32 = 32 ∨ (Rect.block (s := S100000x768) S1000x768.size (cc0_transform_5 i) (hinb0_5 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x768_S1000x768_1_0_0_1_n_n : DotDims S1000x512 S512x768 S1000x768 where
  lhsContracting := [1]
  rhsContracting := [0]
  lhsNonContracting := [0]
  rhsNonContracting := [1]
  lhsBatch := []
  rhsBatch := []
  wf := dot_S1000x512_S512x768_S1000x768_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1000x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x512 : Shape := ⟨2, ![512, 512]⟩
abbrev S512 : Shape := ⟨1, ![512]⟩
abbrev S512x768 : Shape := ⟨2, ![512, 768]⟩
abbrev S768 : Shape := ⟨1, ![768]⟩
abbrev S1x512 : Shape := ⟨2, ![1, 512]⟩
abbrev S_ : Shape := ⟨0, ![]⟩
abbrev S100000x768 : Shape := ⟨2, ![100000, 768]⟩
abbrev S1x768 : Shape := ⟨2, ![1, 768]⟩

abbrev nBuf : Space → Nat
  | .hbm => 29
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x512, .f32⟩
  | .hbm, ⟨2, _⟩ => ⟨S512, .f32⟩
  | .hbm, ⟨3, _⟩ => ⟨S512x768, .f32⟩
  | .hbm, ⟨4, _⟩ => ⟨S768, .f32⟩
  | .hbm, ⟨5, _⟩ => ⟨S100000x512, .f32⟩
  | .hbm, ⟨6, _⟩ => ⟨S1x512, .f32⟩
  | .hbm, ⟨7, _⟩ => ⟨S100000x512, .f32⟩
  | .hbm, ⟨8, _⟩ => ⟨S100000x512, .f32⟩
  | .hbm, ⟨9, _⟩ => ⟨S_, .f32⟩
  | .hbm, ⟨10, _⟩ => ⟨S_, .f32⟩
  | .hbm, ⟨11, _⟩ => ⟨S100000x512, .f32⟩
  | .hbm, ⟨12, _⟩ => ⟨S100000x512, .i1⟩
  | .hbm, ⟨13, _⟩ => ⟨S_, .f32⟩
  | .hbm, ⟨14, _⟩ => ⟨S100000x512, .f32⟩
  | .hbm, ⟨15, _⟩ => ⟨S100000x512, .f32⟩
  | .hbm, ⟨16, _⟩ => ⟨S100000x512, .f32⟩
  | .hbm, ⟨17, _⟩ => ⟨S100000x768, .f32⟩
  | .hbm, ⟨18, _⟩ => ⟨S1x768, .f32⟩
  | .hbm, ⟨19, _⟩ => ⟨S100000x768, .f32⟩
  | .hbm, ⟨20, _⟩ => ⟨S100000x768, .f32⟩
  | .hbm, ⟨21, _⟩ => ⟨S100000x768, .f32⟩
  | .hbm, ⟨22, _⟩ => ⟨S100000x768, .f32⟩
  | .hbm, ⟨23, _⟩ => ⟨S_, .f32⟩
  | .hbm, ⟨24, _⟩ => ⟨S100000x768, .f32⟩
  | .hbm, ⟨25, _⟩ => ⟨S100000x768, .f32⟩
  | .hbm, ⟨26, _⟩ => ⟨S_, .f32⟩
  | .hbm, ⟨27, _⟩ => ⟨S100000x768, .f32⟩
  | .hbm, ⟨28, _⟩ => ⟨S100000x768, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  bcast_S_S100000x768 : S_.BroadcastsInDim S100000x768 (![] : Fin 0 → Fin S100000x768.rank)
  dot_S100000x512_S512x512_S100000x512_1_0_0_1_n_n_wf : DotDims.WF S100000x512 S512x512 S100000x512 [1] [0] [0] [1] [] []
  dot_S100000x512_S512x768_S100000x768_1_0_0_1_n_n_wf : DotDims.WF S100000x512 S512x768 S100000x768 [1] [0] [0] [1] [] []

variable [Facts₀]

def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def dot_S100000x512_S512x768_S100000x768_1_0_0_1_n_n : DotDims S100000x512 S512x768 S100000x768 where
  lhsContracting := [1]
  rhsContracting := [0]
  lhsNonContracting := [0]
  rhsNonContracting := [1]
  lhsBatch := []
  rhsBatch := []
  wf := dot_S100000x512_S512x768_S100000x768_1_0_0_1_n_n_wf

class Facts : Prop extends Facts₀ where

variable [Facts]
-- ==== Proof.Spec.lean ====
/-
  The mathematics shared by both programs, with no program in sight: a two-layer perceptron applied to each of the
  100000 rows of `x`. For a row `xr` (512 entries), weights `W1` (512 × 512), `W2` (512 × 768) and biases `b1`, `b2`:

    hidden j = leaky (Σ_k xr k · W1 k j + b1 j)          leaky y = y where y ≥ 0, f32(0.01) · y elsewhere
    out n    = logistic (Σ_j hidden j · W2 j n + b2 n)    logistic z = 1 / (1 + e^(-z))

  all on the extended reals. Nothing here needs a finite input: both programs apply the same operations in the
  same order to each entry, and the two sums are each one sum over one contracted axis on both sides.

  Also here, for any sizes: a matrix product contracted over one shared axis read at an entry as the sum over that axis
  (`contract_apply`, and the two forms a kernel's `tpu.matmul` into a zero accumulator and the host's `dot_general`
  take: `matmul_zero_apply`, `dotGeneral_plain_apply`), and a bias row laid under every row by `broadcast_in_dim`
  read at an entry (`broadcastInDim_1b_ab_apply`, `broadcastInDim_b_1b_apply`).
-/
import Idealize.ShloMosaic.PureOps.Ideal.Laws
import Idealize.ShloMosaic.Lib.ValueIdx
import Idealize.ShloMosaic.Lib.ValueLayout

noncomputable section

open scoped BigOperators

namespace Cert.Mlp

open Idealize.ShloMosaic Idealize.ShloMosaic.ValueIdx

/-! ## The function of one row -/

/-- The leaky rectifier with slope f32(0.01) on one extended real: `y` where `y ≥ 0`, the slope times `y` elsewhere
    (the comparison and the select both programs print, at one element). -/
def leaky (y : EReal) : EReal :=
  Scalar.select (FloatOps.cmpf (F := Ideal) (φ := .f32) .oge y (Ideal.ofBits .f32 0x00000000#32)) y
    (Ideal.ofBits .f32 0x3C23D70A#32 * y)

/-- Entry `j` of a row's hidden layer. -/
def hidden (xr : Fin 512 → EReal) (W1 : Fin 512 → Fin 512 → EReal) (b1 : Fin 512 → EReal) (j : Fin 512) : EReal :=
  leaky ((∑ k : Fin 512, xr k * W1 k j) + b1 j)

/-- Entry `n` of a row's output. -/
def outRow (xr : Fin 512 → EReal) (W1 : Fin 512 → Fin 512 → EReal) (b1 : Fin 512 → EReal)
    (W2 : Fin 512 → Fin 768 → EReal) (b2 : Fin 768 → EReal) (n : Fin 768) : EReal :=
  Ideal.logistic ((∑ j : Fin 512, hidden xr W1 b1 j * W2 j n) + b2 n)

/-- The whole result: row `r` of the output is `outRow` of row `r` of `x`. -/
def G (x : (⟨2, ![100000, 512]⟩ : Shape).Idx → EReal) (W1 : (⟨2, ![512, 512]⟩ : Shape).Idx → EReal)
    (b1 : (⟨1, ![512]⟩ : Shape).Idx → EReal) (W2 : (⟨2, ![512, 768]⟩ : Shape).Idx → EReal)
    (b2 : (⟨1, ![768]⟩ : Shape).Idx → EReal) : (⟨2, ![100000, 768]⟩ : Shape).Idx → EReal :=
  fun i => outRow (fun k => x (ix2 (i 0) k)) (fun k j => W1 (ix2 k j)) (fun j => b1 (ix1 j))
    (fun j n => W2 (ix2 j n)) (fun n => b2 (ix1 n)) (i 1)

/-- A row's output from ANY hidden layer `h` that is the rectified first layer entry by entry, and any `z` that is the
    second layer of `h`: the logistic of `z`. (How each program's stages meet the specification.) -/
theorem outRow_of (xr : Fin 512 → EReal) (W1 : Fin 512 → Fin 512 → EReal) (b1 : Fin 512 → EReal)
    (W2 : Fin 512 → Fin 768 → EReal) (b2 : Fin 768 → EReal) (n : Fin 768) (h : Fin 512 → EReal)
    (hh : ∀ j, h j = leaky ((∑ k : Fin 512, xr k * W1 k j) + b1 j)) (z : EReal)
    (hz : z = (∑ j : Fin 512, h j * W2 j n) + b2 n) :
    Ideal.logistic z = outRow xr W1 b1 W2 b2 n := by
  have e : h = hidden xr W1 b1 := funext hh
  subst e
  subst hz
  rfl

/-- A row's output depends on its five arguments only through their entries. -/
theorem outRow_congr {f0 g0 : Fin 512 → EReal} {f1 g1 : Fin 512 → Fin 512 → EReal} {f2 g2 : Fin 512 → EReal}
    {f3 g3 : Fin 512 → Fin 768 → EReal} {f4 g4 : Fin 768 → EReal}
    (h0 : ∀ k, f0 k = g0 k) (h1 : ∀ k j, f1 k j = g1 k j) (h2 : ∀ j, f2 j = g2 j) (h3 : ∀ j n, f3 j n = g3 j n)
    (h4 : ∀ n, f4 n = g4 n) (n : Fin 768) : outRow f0 f1 f2 f3 f4 n = outRow g0 g1 g2 g3 g4 n := by
  have e0 : f0 = g0 := funext h0
  have e1 : f1 = g1 := funext fun k => funext (h1 k)
  have e2 : f2 = g2 := funext h2
  have e3 : f3 = g3 := funext fun j => funext (h3 j)
  have e4 : f4 = g4 := funext h4
  subst e0 e1 e2 e3 e4
  rfl

/-! ## A product of two matrices over their one shared axis, read at an entry -/

variable {M K N : ℕ}

/-- The dimension numbers of a plain `M × K` by `K × N` product: the left operand's axis 1 against the right's axis 0. -/
abbrev plainDims (wf : DotDims.WF (⟨2, ![M, K]⟩ : Shape) ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

section Axes
variable (wf : DotDims.WF (⟨2, ![M, K]⟩ : Shape) ⟨2, ![K, N]⟩ ⟨2, ![M, N]⟩ [1] [0] [0] [1] [] [])

/-- The left operand's row is the result's row. -/
theorem lhs_axis0 (i : (⟨2, ![M, N]⟩ : Shape).Idx) (q : (plainDims wf).contr.Idx) :
    ((plainDims wf).lhsIdx i q 0).val = (i 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from
      List.mem_singleton.mpr rfl)]
  rfl

/-- The left operand's column is the contraction index. -/
theorem lhs_axis1 (i : (⟨2, ![M, N]⟩ : Shape).Idx) (q : (plainDims wf).contr.Idx) :
    ((plainDims wf).lhsIdx i q 1).val = (q ⟨0, Nat.zero_lt_one⟩).val :=
  (plainDims wf).lhsIdx_val_of_single rfl i q

/-- The right operand's row is the contraction index. -/
theorem rhs_axis0 (i : (⟨2, ![M, N]⟩ : Shape).Idx) (q : (plainDims wf).contr.Idx) :
    ((plainDims wf).rhsIdx i q 0).val = (q ⟨0, Nat.zero_lt_one⟩).val :=
  (plainDims wf).rhsIdx_val_of_single rfl i q

/-- The right operand's column is the result's column. -/
theorem rhs_axis1 (i : (⟨2, ![M, N]⟩ : Shape).Idx) (q : (plainDims wf).contr.Idx) :
    ((plainDims wf).rhsIdx i q 1).val = (i 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from
      List.mem_singleton.mpr rfl)]
  rfl

end Axes

/-- THE CONTRACTION at entry `(p, q)`: the sum over the contraction index of the operands' products is the sum over
    `k` of the left operand at `(p, k)` times the right at `(k, q)` (the contraction's one axis re-indexed by its
    coordinate). -/
theorem contract_apply (d : DotDims ⟨2, ![M, K]⟩ ⟨2, ![K, N]⟩ ⟨2, ![M, N]⟩)
    (wf : DotDims.WF (⟨2, ![M, K]⟩ : Shape) ⟨2, ![K, N]⟩ ⟨2, ![M, N]⟩ [1] [0] [0] [1] [] []) (hd : d = plainDims wf)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  subst hd
  rw [← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ => exact lhs_axis0 wf _ _
      | ⟨1, _⟩ => exact (lhs_axis1 wf _ _).trans hk)
  have er : (plainDims wf).rhsIdx (ix2 p q) ((contrEquiv1 (plainDims wf) K rfl rfl).symm k) = ix2 k q :=
    funext fun a => Fin.ext (by
      match a with
      | ⟨0, _⟩ => exact (rhs_axis0 wf _ _).trans hk
      | ⟨1, _⟩ => exact rhs_axis1 wf _ _)
  rw [el, er]

/-- A kernel's matrix product into the zero accumulator, at an entry: that sum. -/
theorem matmul_zero_apply (d : DotDims ⟨2, ![M, K]⟩ ⟨2, ![K, N]⟩ ⟨2, ![M, N]⟩)
    (wf : DotDims.WF (⟨2, ![M, K]⟩ : Shape) ⟨2, ![K, N]⟩ ⟨2, ![M, N]⟩ [1] [0] [0] [1] [] []) (hd : d = plainDims wf)
    (prec : Option ContractPrecision) (l : FVec Ideal ⟨2, ![M, K]⟩ .f32) (r : FVec Ideal ⟨2, ![K, N]⟩ .f32)
    (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (contract_apply d wf hd l r p q)

/-- The host's product of the same two matrices, at an entry: the same sum. -/
theorem dotGeneral_plain_apply (d : DotDims ⟨2, ![M, K]⟩ ⟨2, ![K, N]⟩ ⟨2, ![M, N]⟩)
    (wf : DotDims.WF (⟨2, ![M, K]⟩ : Shape) ⟨2, ![K, N]⟩ ⟨2, ![M, N]⟩ [1] [0] [0] [1] [] []) (hd : d = plainDims wf)
    (prec : Option ContractPrecision) (sched : HostSchedule) (l : FVec Ideal ⟨2, ![M, K]⟩ .f32)
    (r : FVec Ideal ⟨2, ![K, N]⟩ .f32) (p : Fin M) (q : Fin N) :
    FloatOps.dotGeneral d prec sched l r (ix2 p q) = ∑ k : Fin K, l (ix2 p k) * r (ix2 k q) :=
  (Ideal.dotGeneral_apply d prec sched l r (ix2 p q)).trans (contract_apply d wf hd l r p q)

/-! ## A bias row under every row, as the host lays it -/

/-- A `[1, b]` array broadcast along both axes to `[a, b]` reads, at `(p, c)`, the operand's one row at `c`. -/
theorem broadcastInDim_1b_ab_apply {α : Type} {a b : ℕ}
    (h : (⟨2, ![1, b]⟩ : Shape).BroadcastsInDim ⟨2, ![a, b]⟩ ![0, 1])
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A `[b]` vector laid as the one row of a `[1, b]` array reads, at `(u, c)`, the operand at `c`. -/
theorem broadcastInDim_b_1b_apply {α : Type} {b : ℕ}
    (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.Mlp

end
-- ==== Proof.KernelValue.lean ====
/-
  The kernel's value. One grid point `t` handles the 1000 rows `1000 t … 1000 t + 999` of `x`: its block of `x`, both
  weight matrices whole and both bias rows whole (as `[1, 512]` and `[1, 768]` arrays the host reshapes the bias vectors
  to before the launch). What the body stores at `(p, n)` of its output block is the specification's row function of
  row `p` of the block of `x` (`pay_apply`: the two products each a sum over the one contracted axis, the bias rows
  read under row `p`, the rectifier and the logistic entry by entry), so what point `t` writes back is block `t` of the
  specification `G` of the argument arrays (`flushed_eq`); the hundred blocks tile the result array (`cover`), which
  therefore ends holding `G` (`final`, `run`).
-/
import proofs.«155148_g65678639891186_cont_9to1_m_264_2_alg».proof.Proof.Gen.KernelIdeal.Value
import proofs.«155148_g65678639891186_cont_9to1_m_264_2_alg».proof.Proof.Spec
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## The body's stored value, stage by stage -/

section Stages
variable {F : FTy → Type} [FloatOps F]

/-- The first layer of a block before its activation: block times `W1`, the bias row under every row. -/
def pre (x0 : Vec F S1000x512 .f32) (x1 : Vec F S512x512 .f32) (x2 : Vec F S1x512 .f32) : FVec F S1000x512 .f32 :=
  addf (matmul dot_S1000x512_S512x512_S1000x512_1_0_0_1_n_n none x0 x1 (constant S1000x512 .f32 0x00000000#32))
    (broadcastTo S1000x512 (shapeCast S1x512 x2 shapeCasts_S1x512_S1x512) broadcasts_S1x512_S1000x512)

/-- The leaky rectifier, entry by entry. -/
def hid (y : FVec F S1000x512 .f32) : FVec F S1000x512 .f32 :=
  select (cmpf .oge y (broadcast S1000x512 (Scalar.ofBits .f32 0x00000000#32))) y
    (mulf (broadcast S1000x512 (Scalar.ofBits .f32 0x3C23D70A#32)) y)

/-- The second layer of a block before the logistic. -/
def logits (h : FVec F S1000x512 .f32) (x3 : Vec F S512x768 .f32) (x4 : Vec F S1x768 .f32) : FVec F S1000x768 .f32 :=
  addf (matmul dot_S1000x512_S512x768_S1000x768_1_0_0_1_n_n none h x3 (constant S1000x768 .f32 0x00000000#32))
    (broadcastTo S1000x768 (shapeCast S1x768 x4 shapeCasts_S1x768_S1x768) broadcasts_S1x768_S1000x768)

/-- The body's one stored value is those stages composed. -/
theorem pay_eq (x0 : Vec F S1000x512 .f32) (x1 : Vec F S512x512 .f32) (x2 : Vec F S1x512 .f32)
    (x3 : Vec F S512x768 .f32) (x4 : Vec F S1x768 .f32) :
    k0_pay1 x0 x1 x2 x3 x4 = logistic (logits (hid (pre x0 x1 x2)) x3 x4) := rfl

end Stages

/-- The first layer at `(p, j)` of the block. -/
theorem pre_apply (x0 : FVec Ideal S1000x512 .f32) (x1 : FVec Ideal S512x512 .f32) (x2 : FVec Ideal S1x512 .f32)
    (p : Fin 1000) (j : Fin 512) :
    pre (F := Ideal) x0 x1 x2 (ix2 p j) = (∑ k : Fin 512, x0 (ix2 p k) * x1 (ix2 k j)) + x2 (ix2 (0 : Fin 1) j) := by
  unfold pre
  rw [addf_apply, shapeCast_self]
  congr 1
  · exact Cert.Mlp.matmul_zero_apply dot_S1000x512_S512x512_S1000x512_1_0_0_1_n_n _ rfl none x0 x1 p j
  · exact broadcastTo_1b_ab_apply x2 _ p j

/-- The rectifier at an entry is the specification's. -/
theorem hid_apply (y : FVec Ideal S1000x512 .f32) (i : S1000x512.Idx) :
    hid (F := Ideal) y i = Cert.Mlp.leaky (y i) := rfl

/-- The second layer at `(p, n)` of the block. -/
theorem logits_apply (h : FVec Ideal S1000x512 .f32) (x3 : FVec Ideal S512x768 .f32) (x4 : FVec Ideal S1x768 .f32)
    (p : Fin 1000) (n : Fin 768) :
    logits (F := Ideal) h x3 x4 (ix2 p n) = (∑ j : Fin 512, h (ix2 p j) * x3 (ix2 j n)) + x4 (ix2 (0 : Fin 1) n) := by
  unfold logits
  rw [addf_apply, shapeCast_self]
  congr 1
  · exact Cert.Mlp.matmul_zero_apply dot_S1000x512_S512x768_S1000x768_1_0_0_1_n_n _ rfl none h x3 p n
  · exact broadcastTo_1b_ab_apply x4 _ p n

/-- WHAT THE BODY STORES at `(p, n)`: the row function of row `p` of its block of `x`, the weights whole and the bias
    rows read at their one row. -/
theorem pay_apply (x0 : FVec Ideal S1000x512 .f32) (x1 : FVec Ideal S512x512 .f32) (x2 : FVec Ideal S1x512 .f32)
    (x3 : FVec Ideal S512x768 .f32) (x4 : FVec Ideal S1x768 .f32) (p : Fin 1000) (n : Fin 768) :
    k0_pay1 (F := Ideal) x0 x1 x2 x3 x4 (ix2 p n)
      = Cert.Mlp.outRow (fun k => x0 (ix2 p k)) (fun k j => x1 (ix2 k j)) (fun j => x2 (ix2 (0 : Fin 1) j))
          (fun j n' => x3 (ix2 j n')) (fun n' => x4 (ix2 (0 : Fin 1) n')) n := by
  rw [pay_eq]
  show Ideal.logistic (logits (F := Ideal) (hid (pre x0 x1 x2)) x3 x4 (ix2 p n)) = _
  exact Cert.Mlp.outRow_of _ _ _ _ _ n (fun j => hid (F := Ideal) (pre x0 x1 x2) (ix2 p j))
    (fun j => by
      show hid (F := Ideal) (pre x0 x1 x2) (ix2 p j)
        = Cert.Mlp.leaky ((∑ k : Fin 512, x0 (ix2 p k) * x1 (ix2 k j)) + x2 (ix2 (0 : Fin 1) j))
      rw [hid_apply, pre_apply]) _ (logits_apply _ x3 x4 p n)

/-! ## The arrays the region finds, and each window's block read at an entry -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the hundred points: `x`'s window moves with the output's along the rows,
    every other window stays at block (0, 0), and the output's block row is the point's number. -/
theorem idx_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first bias as the region finds it: the host's reshape of the `[512]` argument to one row. -/
theorem V_main_v0 (c : Dev nD) :
    (V m c main_v0 : S1x512.Idx → EReal)
      = shapeCast S1x512 (m ((c : Thread nD τ).loc main_arg2) : S512.Idx → EReal) shapeCasts_S512_S1x512 := by
  dsimp only [V, hostOps0]
  after_results
  all_goals rfl

/-- The second bias as the region finds it: the host's reshape of the `[768]` argument to one row. -/
theorem V_main_v1 (c : Dev nD) :
    (V m c main_v1 : S1x768.Idx → EReal)
      = shapeCast S1x768 (m ((c : Thread nD τ).loc main_arg4) : S768.Idx → EReal) shapeCasts_S768_S1x768 := by
  dsimp only [V, hostOps0]
  after_results
  all_goals rfl

/-- Row `p` of point `t`'s block of `x` is row `R` of the argument, `R` the block's first row plus `p`. -/
theorem iblk0_apply (c : Dev nD) (t : Fin cfg0.N) (p : Fin 1000) (k : Fin 512) (R : Fin 100000)
    (hR : R.val = win0_5.index t (0 : Fin 2) * 1000 + p.val)
    (h0 : win0_0.index t (0 : Fin 2) = win0_5.index t (0 : Fin 2)) (h1 : win0_0.index t (1 : Fin 2) = 0) :
    (iblk m c 0 t : FVec Ideal S1000x512 .f32) (ix2 p k)
      = (m ((c : Thread nD τ).loc main_arg0) : FVec Ideal S100000x512 .f32) (ix2 R k) := by
  show V m c main_arg0 (((cfg0.win 0).blk t).view.emb (ix2 p k)) = _
  rw [V_main_arg0]
  refine congrArg (m ((c : Thread nD τ).loc main_arg0) : S100000x512.Idx → EReal) (funext fun a => Fin.ext ?_)
  match a with
  | ⟨0, _⟩ => show win0_0.index t (0 : Fin 2) * 1000 + 1 * p.val = R.val; omega
  | ⟨1, _⟩ => show win0_0.index t (1 : Fin 2) * 512 + 1 * k.val = k.val; omega

/-- The block of `W1` is `W1`. -/
theorem iblk1_apply (c : Dev nD) (t : Fin cfg0.N) (k : Fin 512) (j : Fin 512)
    (h0 : win0_1.index t (0 : Fin 2) = 0) (h1 : win0_1.index t (1 : Fin 2) = 0) :
    (iblk m c 1 t : FVec Ideal S512x512 .f32) (ix2 k j)
      = (m ((c : Thread nD τ).loc main_arg1) : FVec Ideal S512x512 .f32) (ix2 k j) := by
  show V m c main_arg1 (((cfg0.win 1).blk t).view.emb (ix2 k j)) = _
  rw [V_main_arg1]
  refine congrArg (m ((c : Thread nD τ).loc main_arg1) : S512x512.Idx → EReal) (funext fun a => Fin.ext ?_)
  match a with
  | ⟨0, _⟩ => show win0_1.index t (0 : Fin 2) * 512 + 1 * k.val = k.val; omega
  | ⟨1, _⟩ => show win0_1.index t (1 : Fin 2) * 512 + 1 * j.val = j.val; omega

/-- The one row of the first bias block is the `[512]` argument. -/
theorem iblk2_apply (c : Dev nD) (t : Fin cfg0.N) (j : Fin 512)
    (h0 : win0_2.index t (0 : Fin 2) = 0) (h1 : win0_2.index t (1 : Fin 2) = 0) :
    (iblk m c 2 t : FVec Ideal S1x512 .f32) (ix2 (0 : Fin 1) j)
      = (m ((c : Thread nD τ).loc main_arg2) : FVec Ideal S512 .f32) (ix1 j) := by
  have e : ((cfg0.win 2).blk t).view.emb (ix2 (0 : Fin 1) j) = ix2 (0 : Fin 1) j := funext fun a => Fin.ext (by
    match a with
    | ⟨0, _⟩ => show win0_2.index t (0 : Fin 2) * 1 + 1 * 0 = 0; omega
    | ⟨1, _⟩ => show win0_2.index t (1 : Fin 2) * 512 + 1 * j.val = j.val; omega)
  show V m c main_v0 (((cfg0.win 2).blk t).view.emb (ix2 (0 : Fin 1) j)) = _
  rw [e, V_main_v0]
  exact shapeCast_a_1a_apply _ _ 0 j

/-- The block of `W2` is `W2`. -/
theorem iblk3_apply (c : Dev nD) (t : Fin cfg0.N) (j : Fin 512) (n : Fin 768)
    (h0 : win0_3.index t (0 : Fin 2) = 0) (h1 : win0_3.index t (1 : Fin 2) = 0) :
    (iblk m c 3 t : FVec Ideal S512x768 .f32) (ix2 j n)
      = (m ((c : Thread nD τ).loc main_arg3) : FVec Ideal S512x768 .f32) (ix2 j n) := by
  show V m c main_arg3 (((cfg0.win 3).blk t).view.emb (ix2 j n)) = _
  rw [V_main_arg3]
  refine congrArg (m ((c : Thread nD τ).loc main_arg3) : S512x768.Idx → EReal) (funext fun a => Fin.ext ?_)
  match a with
  | ⟨0, _⟩ => show win0_3.index t (0 : Fin 2) * 512 + 1 * j.val = j.val; omega
  | ⟨1, _⟩ => show win0_3.index t (1 : Fin 2) * 768 + 1 * n.val = n.val; omega

/-- The one row of the second bias block is the `[768]` argument. -/
theorem iblk4_apply (c : Dev nD) (t : Fin cfg0.N) (n : Fin 768)
    (h0 : win0_4.index t (0 : Fin 2) = 0) (h1 : win0_4.index t (1 : Fin 2) = 0) :
    (iblk m c 4 t : FVec Ideal S1x768 .f32) (ix2 (0 : Fin 1) n)
      = (m ((c : Thread nD τ).loc main_arg4) : FVec Ideal S768 .f32) (ix1 n) := by
  have e : ((cfg0.win 4).blk t).view.emb (ix2 (0 : Fin 1) n) = ix2 (0 : Fin 1) n := funext fun a => Fin.ext (by
    match a with
    | ⟨0, _⟩ => show win0_4.index t (0 : Fin 2) * 1 + 1 * 0 = 0; omega
    | ⟨1, _⟩ => show win0_4.index t (1 : Fin 2) * 768 + 1 * n.val = n.val; omega)
  show V m c main_v1 (((cfg0.win 4).blk t).view.emb (ix2 (0 : Fin 1) n)) = _
  rw [e, V_main_v1]
  exact shapeCast_a_1a_apply _ _ 0 n

/-! ## From the blocks to the array -/

/-- The specification of the argument arrays as launched. -/
abbrev Gk (c : Dev nD) : S100000x768.Idx → EReal :=
  Cert.Mlp.G (m ((c : Thread nD τ).loc main_arg0)) (m ((c : Thread nD τ).loc main_arg1))
    (m ((c : Thread nD τ).loc main_arg2)) (m ((c : Thread nD τ).loc main_arg3)) (m ((c : Thread nD τ).loc main_arg4))

/-- WHAT POINT `t` WRITES BACK is block `t` of the specification of the argument arrays. -/
theorem flushed_eq (c : Dev nD) (t : Fin cfg0.N) :
    (dats m 0 c).flushed 5 t = ((cfg0.win 5).blk t).view.read (Elt Ideal) (Gk m c) := by
  rw [flushed5]
  unfold out0_5
  rw [View.canon_unit_zero hz]
  simp only [View.ld_unit_zero (S := S1000x512) hz, View.ld_unit_zero (S := S512x512) hz,
    View.ld_unit_zero (S := S1x512) hz, View.ld_unit_zero (S := S512x768) hz, View.ld_unit_zero (S := S1x768) hz]
  obtain ⟨e00, e01, e10, e11, e20, e21, e30, e31, e40, e41, e50, e51⟩ := idx_facts t
  funext j
  obtain ⟨p, n, rfl⟩ : ∃ (p : Fin 1000) (n : Fin 768), j = ix2 p n := ⟨j 0, j 1, eq_ix2 j⟩
  show k0_pay1 (F := Ideal) (iblk m c 0 t) (iblk m c 1 t) (iblk m c 2 t) (iblk m c 3 t) (iblk m c 4 t) (ix2 p n)
    = Gk m c (((cfg0.win 5).blk t).view.emb (ix2 p n))
  have hN : cfg0.N = 100 := N_0
  have hlt : win0_5.index t (0 : Fin 2) * 1000 + p.val < 100000 := by
    have := p.isLt; have := t.isLt; omega
  have hi : ((cfg0.win 5).blk t).view.emb (ix2 p n)
      = ix2 (⟨win0_5.index t (0 : Fin 2) * 1000 + p.val, hlt⟩ : Fin 100000) n :=
    funext fun a => Fin.ext (by
      match a with
      | ⟨0, _⟩ => show win0_5.index t (0 : Fin 2) * 1000 + 1 * p.val = win0_5.index t (0 : Fin 2) * 1000 + p.val; omega
      | ⟨1, _⟩ => show win0_5.index t (1 : Fin 2) * 768 + 1 * n.val = n.val; omega)
  rw [hi]
  refine (pay_apply (iblk m c 0 t) (iblk m c 1 t) (iblk m c 2 t) (iblk m c 3 t) (iblk m c 4 t) p n).trans ?_
  exact Cert.Mlp.outRow_congr
    (fun k => iblk0_apply m c t p k ⟨win0_5.index t (0 : Fin 2) * 1000 + p.val, hlt⟩ rfl e00 e01)
    (fun k j => iblk1_apply m c t k j e10 e11)
    (fun j => iblk2_apply m c t j e20 e21)
    (fun j n' => iblk3_apply m c t j n' e30 e31)
    (fun n' => iblk4_apply m c t n' e40 e41) n

/-- An index of the result array is in point `t`'s block iff each coordinate is in the block's range on its axis. -/
theorem mem_blk (t : Fin cfg0.N) (i : S100000x768.Idx) :
    i ∈ ((cfg0.win 5).blk t).view.set ↔ ∀ a : Fin 2, win0_5.index t a * S1000x768.size a ≤ (i a).val
      ∧ (i a).val < win0_5.index t a * S1000x768.size a + S1000x768.size a := by
  show i ∈ ((View.whole main_v2).slice (win0_5.rect t)).set ↔ _
  rw [View.set_slice_whole, Rect.mem_set_unit]
  exact Iff.rfl

/-- THE BLOCKS TILE THE ARRAY: row `r` lies in the block of point `r / 1000`, which writes back. -/
theorem cover (i : S100000x768.Idx) :
    ∃ t : Fin cfg0.N, (cfg0.win 5).flush t = true ∧ i ∈ ((cfg0.win 5).blk t).view.set := by
  have hi0 : (i 0).val < 100000 := (i 0).isLt
  have hi1 : (i 1).val < 768 := (i 1).isLt
  have hN : cfg0.N = 100 := N_0
  have hq : (i 0).val / 1000 < cfg0.N := by rw [hN]; omega
  obtain ⟨-, -, -, -, -, -, -, -, -, -, e50, e51⟩ := idx_facts ⟨(i 0).val / 1000, hq⟩
  have e50' : win0_5.index ⟨(i 0).val / 1000, hq⟩ (0 : Fin 2) = (i 0).val / 1000 := e50
  refine ⟨⟨(i 0).val / 1000, hq⟩, flush0_5 _, ?_⟩
  rw [mem_blk]
  intro a
  match a with
  | ⟨0, _⟩ =>
    show win0_5.index ⟨(i 0).val / 1000, hq⟩ (0 : Fin 2) * 1000 ≤ (i 0).val
      ∧ (i 0).val < win0_5.index ⟨(i 0).val / 1000, hq⟩ (0 : Fin 2) * 1000 + 1000
    omega
  | ⟨1, _⟩ =>
    show win0_5.index ⟨(i 0).val / 1000, hq⟩ (1 : Fin 2) * 768 ≤ (i 1).val
      ∧ (i 1).val < win0_5.index ⟨(i 0).val / 1000, hq⟩ (1 : Fin 2) * 768 + 768
    omega

/-- THE ARRAY after the run is the specification of the argument arrays. -/
theorem final (c : Dev nD) : (dats m 0 c).arrAt 5 cfg0.N = Gk m c :=
  (dats m 0 c).arrAt_eq_of_cover 5 (Gk m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v2) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Hand

end
-- ==== Proof.RefRun.lean ====
/-
  The reference program's run, read back. Its @main is a straight line of host operations once the two functions it
  calls are unfolded where they are called (the leaky rectifier, and inside it the select): twenty-four operations,
  the callee's seven written out in place over the buffers the call names. Every weakly fair execution ends with
  the result buffer at the operations' composed value `refTerm` of the five arguments, the arguments unchanged:

    refTerm x W1 b1 W2 b2 = 1 / (1 + exp (-(act (x · W1 + b1) · W2 + b2)))      act y = y where y ≥ 0, f32(0.01) · y elsewhere

  each stage a whole-array operation (`pre1`, `act`, `logit`, `sigm`), for any float values.
-/
import proofs.«155148_g65678639891186_cont_9to1_m_264_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The value the program computes, stage by stage -/

/-- The first layer before its activation: `x · W1` with the bias row under every row. -/
def pre1 (x : FVec F S100000x512 .f32) (W1 : FVec F S512x512 .f32) (b1 : FVec F S512 .f32) : FVec F S100000x512 .f32 :=
  addf (Host.dotGeneral dot_S100000x512_S512x512_S100000x512_1_0_0_1_n_n none x W1)
    (broadcastInDim (s := S1x512) S100000x512 ![0, 1] bcast_S1x512_S100000x512_0_1
      (broadcastInDim (s := S512) S1x512 ![1] bcast_S512_S1x512_1 b1))

/-- The leaky rectifier, entry by entry: `y` where `y ≥ 0`, f32(0.01) times `y` elsewhere. -/
def act (y : FVec F S100000x512 .f32) : FVec F S100000x512 .f32 :=
  select (cmpf .oge y (broadcastInDim (s := S_) S100000x512 ![] bcast_S_S100000x512 (constant S_ .f32 0x00000000#32)))
    y (mulf (broadcastInDim (s := S_) S100000x512 ![] bcast_S_S100000x512 (id (constant S_ .f32 0x3C23D70A#32))) y)

/-- The second layer before the logistic: `h · W2` with the bias row under every row. -/
def logit (h : FVec F S100000x512 .f32) (W2 : FVec F S512x768 .f32) (b2 : FVec F S768 .f32) : FVec F S100000x768 .f32 :=
  addf (Host.dotGeneral dot_S100000x512_S512x768_S100000x768_1_0_0_1_n_n none h W2)
    (broadcastInDim (s := S1x768) S100000x768 ![0, 1] bcast_S1x768_S100000x768_0_1
      (broadcastInDim (s := S768) S1x768 ![1] bcast_S768_S1x768_1 b2))

/-- The logistic as the host spells it: one over one plus the exponential of the negation. -/
def sigm (z : FVec F S100000x768 .f32) : FVec F S100000x768 .f32 :=
  Host.divf (broadcastInDim (s := S_) S100000x768 ![] bcast_S_S100000x768 (constant S_ .f32 0x3F800000#32))
    (addf (broadcastInDim (s := S_) S100000x768 ![] bcast_S_S100000x768 (constant S_ .f32 0x3F800000#32))
      (Host.exp (Host.negf z)))

/-- The program's result as one term of its five arguments. -/
def refTerm (x : FVec F S100000x512 .f32) (W1 : FVec F S512x512 .f32) (b1 : FVec F S512 .f32)
    (W2 : FVec F S512x768 .f32) (b2 : FVec F S768 .f32) : FVec F S100000x768 .f32 :=
  sigm (logit (act (pre1 x W1 b1)) W2 b2)

/-! ## @main as a list of operations -/

/-- @main's operations in order, the call unfolded: the rectifier's seven (the zero and its broadcast, the
    comparison, the slope converted to its own type and broadcast, the product, and the select of the function it
    calls in turn) run into the buffers the call names. -/
abbrev ops : List (HloOp τ sig (Elt F)) :=
  [ binary main_arg0 main_arg1 main_v0 ((fun l r => Host.dotGeneral dot_S100000x512_S512x512_S100000x512_1_0_0_1_n_n none l r) : (⟨S100000x512, .f32⟩ : BufTy).Contents (Elt F) → (⟨S512x512, .f32⟩ : BufTy).Contents (Elt F) → (⟨S100000x512, .f32⟩ : BufTy).Contents (Elt F)),
    unary main_arg2 main_v1 (broadcastInDim S1x512 ![1] bcast_S512_S1x512_1 : (⟨S512, .f32⟩ : BufTy).Contents (Elt F) → (⟨S1x512, .f32⟩ : BufTy).Contents (Elt F)),
    unary main_v1 main_v2 (broadcastInDim S100000x512 ![0, 1] bcast_S1x512_S100000x512_0_1 : (⟨S1x512, .f32⟩ : BufTy).Contents (Elt F) → (⟨S100000x512, .f32⟩ : BufTy).Contents (Elt F)),
    binary main_v0 main_v2 main_v3 (addf : (⟨S100000x512, .f32⟩ : BufTy).Contents (Elt F) → (⟨S100000x512, .f32⟩ : BufTy).Contents (Elt F) → (⟨S100000x512, .f32⟩ : BufTy).Contents (Elt F)),
    nullary main_cst (constant S_ .f32 0x3C23D70A#32),
    TRef.nullary main_call0.cst (constant S_ .f32 0x00000000#32),
    TRef.unary main_call0.cst main_call0.v0 (broadcastInDim S100000x512 ![] bcast_S_S100000x512),
    TRef.binary (TRef.of main_v3 : TRef sig ⟨S100000x512, .f32⟩) main_call0.v0 main_call0.v1 (cmpf .oge),
    TRef.unary (TRef.of main_cst : TRef sig ⟨S_, .f32⟩) main_call0.v2 id,
    TRef.unary main_call0.v2 main_call0.v3 (broadcastInDim S100000x512 ![] bcast_S_S100000x512),
    TRef.binary main_call0.v3 (TRef.of main_v3 : TRef sig ⟨S100000x512, .f32⟩) main_call0.v4 mulf,
    TRef.ternary main_call0.v1 (TRef.of main_v3 : TRef sig ⟨S100000x512, .f32⟩) main_call0.v4 main_call0.call0.v0 select,
    binary main_v4 main_arg3 main_v5 ((fun l r => Host.dotGeneral dot_S100000x512_S512x768_S100000x768_1_0_0_1_n_n none l r) : (⟨S100000x512, .f32⟩ : BufTy).Contents (Elt F) → (⟨S512x768, .f32⟩ : BufTy).Contents (Elt F) → (⟨S100000x768, .f32⟩ : BufTy).Contents (Elt F)),
    unary main_arg4 main_v6 (broadcastInDim S1x768 ![1] bcast_S768_S1x768_1 : (⟨S768, .f32⟩ : BufTy).Contents (Elt F) → (⟨S1x768, .f32⟩ : BufTy).Contents (Elt F)),
    unary main_v6 main_v7 (broadcastInDim S100000x768 ![0, 1] bcast_S1x768_S100000x768_0_1 : (⟨S1x768, .f32⟩ : BufTy).Contents (Elt F) → (⟨S100000x768, .f32⟩ : BufTy).Contents (Elt F)),
    binary main_v5 main_v7 main_v8 (addf : (⟨S100000x768, .f32⟩ : BufTy).Contents (Elt F) → (⟨S100000x768, .f32⟩ : BufTy).Contents (Elt F) → (⟨S100000x768, .f32⟩ : BufTy).Contents (Elt F)),
    unary main_v8 main_v9 (Host.negf : (⟨S100000x768, .f32⟩ : BufTy).Contents (Elt F) → (⟨S100000x768, .f32⟩ : BufTy).Contents (Elt F)),
    unary main_v9 main_v10 (Host.exp : (⟨S100000x768, .f32⟩ : BufTy).Contents (Elt F) → (⟨S100000x768, .f32⟩ : BufTy).Contents (Elt F)),
    nullary main_cst_0 (constant S_ .f32 0x3F800000#32),
    unary main_cst_0 main_v11 (broadcastInDim S100000x768 ![] bcast_S_S100000x768 : (⟨S_, .f32⟩ : BufTy).Contents (Elt F) → (⟨S100000x768, .f32⟩ : BufTy).Contents (Elt F)),
    binary main_v11 main_v10 main_v12 (addf : (⟨S100000x768, .f32⟩ : BufTy).Contents (Elt F) → (⟨S100000x768, .f32⟩ : BufTy).Contents (Elt F) → (⟨S100000x768, .f32⟩ : BufTy).Contents (Elt F)),
    nullary main_cst_1 (constant S_ .f32 0x3F800000#32),
    unary main_cst_1 main_v13 (broadcastInDim S100000x768 ![] bcast_S_S100000x768 : (⟨S_, .f32⟩ : BufTy).Contents (Elt F) → (⟨S100000x768, .f32⟩ : BufTy).Contents (Elt F)),
    binary main_v13 main_v12 main_v14 (Host.divf : (⟨S100000x768, .f32⟩ : BufTy).Contents (Elt F) → (⟨S100000x768, .f32⟩ : BufTy).Contents (Elt F) → (⟨S100000x768, .f32⟩ : BufTy).Contents (Elt F)) ]

set_option maxRecDepth 1024 in
/-- @main is that straight line: the two functions' definitions unfolded at their calls and the records at their
    fields, both sides are one chain of steps once sequencing is reassociated. -/
theorem main_eq (c : Dev nD) : main (F := F) c = seq ops := by
  simp only [main, fn_leaky_relu.body, fn_where.body, seq, bind_assoc, pure_bind]

set_option maxRecDepth 8192 in
set_option maxHeartbeats 400000 in
/-- The fold of the operations at the result buffer is `refTerm` of the argument buffers: each operation's result at
    the buffer it writes, every other buffer as it was. -/
theorem out_eq (V : Valuation τ sig (Elt F)) :
    after ops V (main_v14 : DevRef τ sig)
      = refTerm (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..⟩

/-- On every device, for any float values, from any memory with zero counters: every weakly fair execution of @main
    terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v14).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.Hand

end
-- ==== Proof.RefValue.lean ====
/-
  The reference's value, entry by entry: at the extended reals the term its run ends at (`refTerm`) is the row function
  of the specification. Entry `(r, n)` of each stage: the first product is the sum over `k` of `x (r, k) · W1 (k, j)`
  and the bias row adds `b1 j`; the rectifier acts entry by entry; the second product and bias likewise; and the host's
  `1 / (1 + exp (-z))` is the logistic of `z` (the pattern of one denotes one).
-/
import proofs.«155148_g65678639891186_cont_9to1_m_264_2_alg».proof.Proof.RefRun
import proofs.«155148_g65678639891186_cont_9to1_m_264_2_alg».proof.Proof.Spec
import Idealize.ShloMosaic.Lib.IdealHost

noncomputable section

open scoped BigOperators

namespace Cert.ReferenceIdeal.Hand

open Cert.ReferenceIdeal Cert.ReferenceIdeal.Gen Idealize.ShloMosaic Idealize.ShloMosaic.ValueIdx

/-- The first layer before its activation, at `(r, j)`. -/
theorem pre1_apply (x : FVec Ideal S100000x512 .f32) (W1 : FVec Ideal S512x512 .f32) (b1 : FVec Ideal S512 .f32)
    (r : Fin 100000) (j : Fin 512) :
    pre1 (F := Ideal) x W1 b1 (ix2 r j) = (∑ k : Fin 512, x (ix2 r k) * W1 (ix2 k j)) + b1 (ix1 j) := by
  unfold pre1
  rw [addf_apply]
  congr 1
  · exact Cert.Mlp.dotGeneral_plain_apply dot_S100000x512_S512x512_S100000x512_1_0_0_1_n_n _ rfl none .single x W1 r j
  · exact (Cert.Mlp.broadcastInDim_1b_ab_apply _ _ r j).trans (Cert.Mlp.broadcastInDim_b_1b_apply _ b1 0 j)

/-- The rectifier at an entry is the specification's. -/
theorem act_apply (y : FVec Ideal S100000x512 .f32) (i : S100000x512.Idx) :
    act (F := Ideal) y i = Cert.Mlp.leaky (y i) := rfl

/-- The second layer before the logistic, at `(r, n)`. -/
theorem logit_apply (h : FVec Ideal S100000x512 .f32) (W2 : FVec Ideal S512x768 .f32) (b2 : FVec Ideal S768 .f32)
    (r : Fin 100000) (n : Fin 768) :
    logit (F := Ideal) h W2 b2 (ix2 r n) = (∑ j : Fin 512, h (ix2 r j) * W2 (ix2 j n)) + b2 (ix1 n) := by
  unfold logit
  rw [addf_apply]
  congr 1
  · exact Cert.Mlp.dotGeneral_plain_apply dot_S100000x512_S512x768_S100000x768_1_0_0_1_n_n _ rfl none .single h W2 r n
  · exact (Cert.Mlp.broadcastInDim_1b_ab_apply _ _ r n).trans (Cert.Mlp.broadcastInDim_b_1b_apply _ b2 0 n)

/-- The host's `1 / (1 + exp (-z))` at an entry is the logistic of the entry. -/
theorem sigm_apply (z : FVec Ideal S100000x768 .f32) (i : S100000x768.Idx) :
    sigm (F := Ideal) z i = Ideal.logistic (z i) := by
  show Ideal.div (Ideal.ofBits .f32 0x3F800000#32) (Ideal.ofBits .f32 0x3F800000#32 + Ideal.exp (-(z i))) = _
  unfold Ideal.logistic
  rw [Ideal.ofBits_one_f32]

/-- THE REFERENCE IS THE SPECIFICATION: its run's term, at the extended reals, is `G` of the arguments. -/
theorem refTerm_eq (x : FVec Ideal S100000x512 .f32) (W1 : FVec Ideal S512x512 .f32) (b1 : FVec Ideal S512 .f32)
    (W2 : FVec Ideal S512x768 .f32) (b2 : FVec Ideal S768 .f32) :
    refTerm (F := Ideal) x W1 b1 W2 b2 = Cert.Mlp.G x W1 b1 W2 b2 := by
  funext i
  obtain ⟨r, n, rfl⟩ : ∃ (r : Fin 100000) (n : Fin 768), i = ix2 r n := ⟨i 0, i 1, eq_ix2 i⟩
  show sigm (F := Ideal) (logit (act (pre1 x W1 b1)) W2 b2) (ix2 r n)
    = Cert.Mlp.outRow (fun k => x (ix2 r k)) (fun k j => W1 (ix2 k j)) (fun j => b1 (ix1 j))
        (fun j n' => W2 (ix2 j n')) (fun n' => b2 (ix1 n')) n
  rw [sigm_apply]
  exact Cert.Mlp.outRow_of _ _ _ _ _ n (fun j => act (F := Ideal) (pre1 x W1 b1) (ix2 r j))
    (fun j => by
      show act (F := Ideal) (pre1 x W1 b1) (ix2 r j)
        = Cert.Mlp.leaky ((∑ k : Fin 512, x (ix2 r k) * W1 (ix2 k j)) + b1 (ix1 j))
      rw [act_apply, pre1_apply]) _ (logit_apply _ W2 b2 r n)

end Cert.ReferenceIdeal.Hand

end
-- ==== Proof.lean ====
/-
  The proof of `Cert.Claim`: a two-layer perceptron — `logistic (leaky (x · W1 + b1) · W2 + b2)`, row by row of a
  100000 × 512 input — as ONE kernel over blocks of 1000 rows against the same formula in plain array operations.

  At the extended reals the two programs are one function of their arguments, entry by entry, with no condition on the
  inputs: each matrix product is, on both sides, one sum over the one contracted axis (the kernel's accumulates into a
  zero block, the host's has no accumulator; the kernel multiplies a block of rows, the host all rows: the same rows'
  sums); the bias is added under every row (the kernel reads a `[1, n]` row the host reshaped, the reference broadcasts
  the vector); the rectifier is the same comparison with zero, the same product with the same slope pattern, and the
  same select; and the kernel's logistic is the host's `1 / (1 + exp (-z))` by definition. The specification is
  `Cert.Mlp.G` (Proof/Spec.lean); the kernel's result array ends at it (Proof/KernelValue.lean, over the generated
  frame run with its output array named), and so does the reference's (Proof/RefRun.lean, Proof/RefValue.lean).
  The three frames: the two kernels' are the generated frame certificates; the reference's is its run with the
  result dropped. The ideal pass rewrote nothing, so `preserves` is trivial.
-/
import proofs.«155148_g65678639891186_cont_9to1_m_264_2_alg».proof.Defs
import proofs.«155148_g65678639891186_cont_9to1_m_264_2_alg».proof.Proof.Gen.Kernel
import proofs.«155148_g65678639891186_cont_9to1_m_264_2_alg».proof.Proof.Gen.Kernel.Skeleton
import proofs.«155148_g65678639891186_cont_9to1_m_264_2_alg».proof.Proof.Gen.Kernel.Launch
import proofs.«155148_g65678639891186_cont_9to1_m_264_2_alg».proof.Proof.Gen.Kernel.Points
import proofs.«155148_g65678639891186_cont_9to1_m_264_2_alg».proof.Proof.Gen.Kernel.Frame
import proofs.«155148_g65678639891186_cont_9to1_m_264_2_alg».proof.Proof.Gen.KernelIdeal
import proofs.«155148_g65678639891186_cont_9to1_m_264_2_alg».proof.Proof.Gen.KernelIdeal.Skeleton
import proofs.«155148_g65678639891186_cont_9to1_m_264_2_alg».proof.Proof.Gen.KernelIdeal.Launch
import proofs.«155148_g65678639891186_cont_9to1_m_264_2_alg».proof.Proof.Gen.KernelIdeal.Points
import proofs.«155148_g65678639891186_cont_9to1_m_264_2_alg».proof.Proof.Gen.KernelIdeal.Frame
import proofs.«155148_g65678639891186_cont_9to1_m_264_2_alg».proof.Proof.Gen.KernelIdeal.Value
import proofs.«155148_g65678639891186_cont_9to1_m_264_2_alg».proof.Proof.Gen.ReferenceIdeal
import proofs.«155148_g65678639891186_cont_9to1_m_264_2_alg».proof.Proof.Gen.Pre_finite_inputs
import proofs.«155148_g65678639891186_cont_9to1_m_264_2_alg».proof.Proof.KernelValue
import proofs.«155148_g65678639891186_cont_9to1_m_264_2_alg».proof.Proof.RefRun
import proofs.«155148_g65678639891186_cont_9to1_m_264_2_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the five arguments both programs end with the result array at the specification of
    the arguments: the kernel's by its blocks, the reference's by its run's term read entry by entry. -/
theorem algebraic : Cert.algebraic_KernelIdeal_ReferenceIdeal := by
  intro m ρ m' ρ' _ hagree
  refine ⟨fun c => Cert.KernelIdeal.Hand.Gk m c, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  exact Cert.ReferenceIdeal.Hand.refTerm_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
